-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x2048 : Shape := ⟨3, ![256, 128, 2048]⟩
abbrev S_ : Shape := ⟨0, ![]⟩

class Facts : Prop where
  bcast_S_S256x128x2048 : S_.BroadcastsInDim S256x128x2048 (![] : Fin 0 → Fin S256x128x2048.rank)
  reducesTo_S256x128x2048_S_d0_1_2 : S256x128x2048.ReducesTo [0, 1, 2] S_
  h_S_ : 0 < S_.numel

variable [Facts]

def fn {F : FTy → Type} [FloatOps F] (main_arg0 : FVec F S256x128x2048 .f32) : IVec S_ 1 :=
  let main_v0 : FVec F S256x128x2048 .f32 := Host.absf main_arg0
  let main_cst : FVec F S_ .f32 := constant S_ .f32 0x7F800000#32
  let main_v1 : FVec F S256x128x2048 .f32 := broadcastInDim S256x128x2048 ![] bcast_S_S256x128x2048 main_cst
  let main_v2 : IVec S256x128x2048 1 := cmpf .olt main_v0 main_v1
  let main_c : IVec S_ 1 := constantI S_ 1 1#1
  let main_v3 : IVec S_ 1 := (fun x v => Host.reduce IntOp.andi x v reducesTo_S256x128x2048_S_d0_1_2 h_S_) main_v2 main_c
  main_v3
-- ==== Kernel.lean ====
abbrev S256x128x2048 : Shape := ⟨3, ![256, 128, 2048]⟩
abbrev S4x128x2048 : Shape := ⟨3, ![4, 128, 2048]⟩
abbrev S4x2048 : Shape := ⟨2, ![4, 2048]⟩
abbrev S4x1x2048 : Shape := ⟨3, ![4, 1, 2048]⟩
abbrev S4x128 : Shape := ⟨2, ![4, 128]⟩
abbrev S4x128x1 : Shape := ⟨3, ![4, 128, 1]⟩

abbrev nBuf : Space → Nat
  | .hbm => 2
  | .vmem => 4
  | .smem => 0
  | _ => 0

abbrev bufTy : (tb : Table) → Fin (tcTables nBuf tb) → BufTy
  | .hbm, ⟨0, _⟩ => ⟨S256x128x2048, .f32⟩
  | .hbm, ⟨1, _⟩ => ⟨S256x128x2048, .f32⟩
  | .local _ .vmem, ⟨0, _⟩ => ⟨S4x128x2048, .f32⟩
  | .local _ .vmem, ⟨1, _⟩ => ⟨S4x128x2048, .f32⟩
  | .local _ .vmem, ⟨2, _⟩ => ⟨S4x128x2048, .f32⟩
  | .local _ .vmem, ⟨3, _⟩ => ⟨S4x128x2048, .f32⟩
  | _, _ => ⟨S256x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x128x2048_S4x128x2048_0_0_0 : ∀ a, (![0, 0, 0] : Fin 3 → Nat) a + S4x128x2048.size a ≤ S4x128x2048.size a
  h_S4x128x2048 : 0 < S4x128x2048.numel
  reduces_S4x128x2048_S4x2048 : S4x128x2048.Reduces [1] S4x2048
  shapeCasts_S4x2048_S4x1x2048 : S4x2048.ShapeCasts S4x1x2048
  broadcasts_S4x1x2048_S4x128x2048 : S4x1x2048.Broadcasts S4x128x2048
  reduces_S4x128x2048_S4x128 : S4x128x2048.Reduces [2] S4x128
  shapeCasts_S4x128_S4x128x1 : S4x128.ShapeCasts S4x128x1
  broadcasts_S4x128x1_S4x128x2048 : S4x128x1.Broadcasts S4x128x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x2048.size a ≤ S256x128x2048.size a
  hwx0_0 : ∀ i : grid0.Coords, EltTy.bits .f32 = 32 ∨ (Rect.block (s := S256x128x2048) S4x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x2048.size a ≤ S256x128x2048.size a
  hwx0_1 : ∀ i : grid0.Coords, EltTy.bits .f32 = 32 ∨ (Rect.block (s := S256x128x2048) S4x128x2048.size (cc0_transform_1 i) (hinb0_1 i)).WholeWords (EltTy.packing .f32)

variable [Facts₀]

abbrev win0_0 : Pipeline.Window sig grid0 :=
  Pipeline.Window.ofSpec (Memref.whole main_arg0) S4x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x128x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x128x2048 : Shape := ⟨3, ![256, 128, 2048]⟩
abbrev S_ : Shape := ⟨0, ![]⟩
abbrev S256x2048 : Shape := ⟨2, ![256, 2048]⟩
abbrev S256x1x2048 : Shape := ⟨3, ![256, 1, 2048]⟩
abbrev S256x128 : Shape := ⟨2, ![256, 128]⟩
abbrev S256x128x1 : Shape := ⟨3, ![256, 128, 1]⟩

abbrev nBuf : Space → Nat
  | .hbm => 50
  | .vmem => 0
  | .smem => 0
  | _ => 0

abbrev bufTy : (tb : Table) → Fin (tcTables nBuf tb) → BufTy
  | .hbm, ⟨0, _⟩ => ⟨S256x128x2048, .f32⟩
  | .hbm, ⟨1, _⟩ => ⟨S_, .f32⟩
  | .hbm, ⟨2, _⟩ => ⟨S256x2048, .f32⟩
  | .hbm, ⟨3, _⟩ => ⟨S256x1x2048, .f32⟩
  | .hbm, ⟨4, _⟩ => ⟨S_, .f32⟩
  | .hbm, ⟨5, _⟩ => ⟨S256x1x2048, .f32⟩
  | .hbm, ⟨6, _⟩ => ⟨S256x1x2048, .f32⟩
  | .hbm, ⟨7, _⟩ => ⟨S256x128x2048, .f32⟩
  | .hbm, ⟨8, _⟩ => ⟨S256x128x2048, .f32⟩
  | .hbm, ⟨9, _⟩ => ⟨S_, .f32⟩
  | .hbm, ⟨10, _⟩ => ⟨S256x128, .f32⟩
  | .hbm, ⟨11, _⟩ => ⟨S256x128x1, .f32⟩
  | .hbm, ⟨12, _⟩ => ⟨S_, .f32⟩
  | .hbm, ⟨13, _⟩ => ⟨S256x128x1, .f32⟩
  | .hbm, ⟨14, _⟩ => ⟨S256x128x1, .f32⟩
  | .hbm, ⟨15, _⟩ => ⟨S_, .i32⟩
  | .hbm, ⟨16, _⟩ => ⟨S_, .f32⟩
  | .hbm, ⟨17, _⟩ => ⟨S256x128, .f32⟩
  | .hbm, ⟨18, _⟩ => ⟨S256x128x1, .f32⟩
  | .hbm, ⟨19, _⟩ => ⟨S_, .f32⟩
  | .hbm, ⟨20, _⟩ => ⟨S256x128x1, .f32⟩
  | .hbm, ⟨21, _⟩ => ⟨S256x128x1, .f32⟩
  | .hbm, ⟨22, _⟩ => ⟨S256x128x2048, .f32⟩
  | .hbm, ⟨23, _⟩ => ⟨S256x128x2048, .f32⟩
  | .hbm, ⟨24, _⟩ => ⟨S256x128x2048, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S256x128, .f32⟩
  | .hbm, ⟨30, _⟩ => ⟨S256x128x1, .f32⟩
  | .hbm, ⟨31, _⟩ => ⟨S256x128x1, .f32⟩
  | .hbm, ⟨32, _⟩ => ⟨S256x128x1, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S256x128x1, .f32⟩
  | .hbm, ⟨38, _⟩ => ⟨S256x128x1, .f32⟩
  | .hbm, ⟨39, _⟩ => ⟨S256x128x1, .f32⟩
  | .hbm, ⟨40, _⟩ => ⟨S_, .f32⟩
  | .hbm, ⟨41, _⟩ => ⟨S256x128x1, .f32⟩
  | .hbm, ⟨42, _⟩ => ⟨S256x128x1, .i1⟩
  | .hbm, ⟨43, _⟩ => ⟨S_, .f32⟩
  | .hbm, ⟨44, _⟩ => ⟨S256x128x1, .f32⟩
  | .hbm, ⟨45, _⟩ => ⟨S256x128x1, .f32⟩
  | .hbm, ⟨46, _⟩ => ⟨S256x128x2048, .f32⟩
  | .hbm, ⟨47, _⟩ => ⟨S256x128x2048, .f32⟩
  | .hbm, ⟨48, _⟩ => ⟨S256x128x2048, .f32⟩
  | .hbm, ⟨49, _⟩ => ⟨S256x128x2048, .f32⟩
  | _, _ => ⟨S256x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_cst_0 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_cst_1 : Ref sig .tc := ⟨.hbm, 26, rfl⟩
abbrev main_call0_call0_v8 : Ref sig .tc := ⟨.hbm, 27, rfl⟩
abbrev main_call0_call0_cst_2 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_call0_v12 : Ref sig .tc := ⟨.hbm, 32, rfl⟩
abbrev main_call0_call0_cst_3 : Ref sig .tc := ⟨.hbm, 33, rfl⟩
abbrev main_call0_call0_v13 : Ref sig .tc := ⟨.hbm, 34, rfl⟩
abbrev main_call0_call0_cst_4 : Ref sig .tc := ⟨.hbm, 35, rfl⟩
abbrev main_call0_call0_call0_v0 : Ref sig .tc := ⟨.hbm, 36, rfl⟩
abbrev main_call0_call0_call0_v1 : Ref sig .tc := ⟨.hbm, 37, rfl⟩
abbrev main_call0_v0 : Ref sig .tc := ⟨.hbm, 38, rfl⟩
abbrev main_v10 : Ref sig .tc := ⟨.hbm, 39, rfl⟩
abbrev main_cst_3 : Ref sig .tc := ⟨.hbm, 40, rfl⟩
abbrev main_v11 : Ref sig .tc := ⟨.hbm, 41, rfl⟩
abbrev main_v12 : Ref sig .tc := ⟨.hbm, 42, rfl⟩
abbrev main_cst_4 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩

abbrev nD : Nat := 1
abbrev τ : Topo := Topo.v7x

variable {F : FTy → Type} [FloatOps F]

class Facts₀ : Prop where
  reducesTo_S256x128x2048_S256x2048_d1 : S256x128x2048.ReducesTo [1] S256x2048
  h_S_ : 0 < S_.numel
  bcast_S256x2048_S256x1x2048_0_2 : S256x2048.BroadcastsInDim S256x1x2048 (![0, 2] : Fin 2 → Fin S256x1x2048.rank)
  bcast_S_S256x1x2048 : S_.BroadcastsInDim S256x1x2048 (![] : Fin 0 → Fin S256x1x2048.rank)
  bcast_S256x1x2048_S256x128x2048_0_1_2 : S256x1x2048.BroadcastsInDim S256x128x2048 (![0, 1, 2] : Fin 3 → Fin S256x128x2048.rank)
  reducesTo_S256x128x2048_S256x128_d2 : S256x128x2048.ReducesTo [2] S256x128
  bcast_S256x128_S256x128x1_0_1 : S256x128.BroadcastsInDim S256x128x1 (![0, 1] : Fin 2 → Fin S256x128x1.rank)
  bcast_S_S256x128x1 : S_.BroadcastsInDim S256x128x1 (![] : Fin 0 → Fin S256x128x1.rank)
  bcast_S256x128x1_S256x128x2048_0_1_2 : S256x128x1.BroadcastsInDim S256x128x2048 (![0, 1, 2] : Fin 3 → Fin S256x128x2048.rank)

variable [Facts₀]

class Facts : Prop extends Facts₀ where

variable [Facts]
-- ==== Proof.Slab.lean ====
/-
  One recording (128 channels by 2048 time steps) normalised in two stages, as a function on the extended reals.

  Stage one removes, at every time step, the mean over the channels ("average reference"). Stage two is a z-score
  along time for every channel: the mean over time is removed, and the result is divided by the root of the mean
  square of what is left (the population standard deviation), with 1 in place of a standard deviation that is 0.
  Every quotient is the ideal division by the value a float pattern denotes (128.0, 2048.0), written as the pattern
  so that neither side of the equivalence ever has to evaluate it. Both programs compute exactly this function of
  each recording; no law beyond reading the operations at an index joins them, so finiteness of the input is not used.

  \`G\` applies it to each of the 256 recordings of the array: the one function both programs' posts are stated with.

  Also here: the pattern 0x45000000 denotes 2048, the one evaluation the reference's variance needs. Its divisor is
  "2048 minus the degrees of freedom", with the degrees of freedom the integer 0, kept only where that divisor is
  positive; at 2048 - 0 it is 2048 and positive.
-/
import Idealize.ShloMosaic.PureOps.Ideal
import Idealize.ShloMosaic.PureOps.Ideal.Laws
import Idealize.ShloMosaic.Lib.ValueIdx

noncomputable section

namespace Cert.EegNorm

open Idealize.ShloMosaic Idealize.ShloMosaic.ValueIdx

/-- One recording: channels by time. -/
abbrev Rec : Type := Fin 128 → Fin 2048 → EReal

/-- The channel count 128.0, the time-step count 2048.0, and the patterns of 0.0 and 1.0, as the kernels spell them. -/
abbrev nCh : EReal := Ideal.ofBits .f32 0x43000000#32
abbrev nT : EReal := Ideal.ofBits .f32 0x45000000#32
abbrev zeroW : EReal := Ideal.ofBits .f32 0x00000000#32
abbrev oneW : EReal := Ideal.ofBits .f32 0x3F800000#32

/-- Stage one: the sample minus the mean over the channels at its time step. -/
def reref (X : Rec) (c : Fin 128) (t : Fin 2048) : EReal :=
  X c t - Ideal.div (∑ k : Fin 128, X k t) nCh

/-- Stage two, first half: minus the channel's mean over time. -/
def centred (X : Rec) (c : Fin 128) (t : Fin 2048) : EReal :=
  reref X c t - Ideal.div (∑ k : Fin 2048, reref X c k) nT

/-- The channel's population standard deviation: the root of the mean over time of the centred squares. -/
def spread (X : Rec) (c : Fin 128) : EReal :=
  Ideal.sqrt (Ideal.div (∑ k : Fin 2048, centred X c k * centred X c k) nT)

/-- The z-score: the centred sample over the standard deviation, over 1 where the standard deviation is 0. -/
def zscore (X : Rec) (c : Fin 128) (t : Fin 2048) : EReal :=
  Ideal.div (centred X c t) (Scalar.select (Ideal.cmp .oeq (spread X c) zeroW) oneW (spread X c))

/-- The whole array: 256 recordings. -/
abbrev Arr : Shape := ⟨3, ![256, 128, 2048]⟩

/-- Recording `b` of an array. -/
abbrev recAt (x : Arr.Idx → EReal) (b : Fin 256) : Rec := fun c t => x (ix3 b c t)

/-- WHAT BOTH PROGRAMS COMPUTE: every recording of the array replaced by its z-scores. -/
def G (x : Arr.Idx → EReal) : Arr.Idx → EReal := fun i => zscore (recAt x (i 0)) (i 1) (i 2)

theorem G_apply (x : Arr.Idx → EReal) (b : Fin 256) (c : Fin 128) (t : Fin 2048) :
    G x (ix3 b c t) = zscore (recAt x b) c t := rfl

/-- The pattern 0x45000000 denotes the real 2048. -/
theorem ofBits_2048 : Ideal.ofBits .f32 0x45000000#32 = ((2048 : ℝ) : EReal) := by
  simp [Ideal.ofBits, Ideal.ieee, -EReal.coe_mul]; norm_num

/-- The variance's divisor with zero degrees of freedom removed is the time-step count itself. -/
theorem nT_sub_ddof : nT - (((0#32 : BitVec 32).toInt : ℝ) : EReal) = nT := by
  rw [show (0#32 : BitVec 32).toInt = 0 from rfl, Int.cast_zero, EReal.coe_zero, sub_zero]

/-- That divisor is above zero, so the variance is kept and not replaced by the not-a-number filler. -/
theorem nT_pos : Ideal.cmp .ogt nT zeroW = 1#1 := by
  show BitVec.ofBool (decide (zeroW < nT)) = 1#1
  rw [show zeroW = 0 from Ideal.ofBits_zero_f32, show nT = ((2048 : ℝ) : EReal) from ofBits_2048]
  rw [decide_eq_true (by exact_mod_cast (by norm_num : (0 : ℝ) < 2048))]
  rfl

end Cert.EegNorm

end
-- ==== Proof.KernelPay.lean ====
/-
  The kernel body's stored value, read at an index of its block.

  The body loads a block of 4 recordings and stores one value, `k0_pay1` of the load. That term is the same chain
  of stages as the specification's, on the block: the mean over the channels removed (`kRr`), the mean over time
  with the reduced axis kept (`kTmean`), the centred block (`kCen`), the root of the mean square (`kSd`), 1 in
  place of a zero root (`kSd1`), the quotient (`kOut`). Each layout operation is read at an index — a cast that
  inserts a unit axis keeps the row-major position, a broadcast along a unit axis reads coordinate 0 there — and each
  lane sum is the sum over its axis's coordinate; so at (b, c, t) the payload is the z-score of recording b of the block.
-/
import proofs.«152762_j26749056319877_1_alg».proof.Proof.Gen.KernelIdeal.Skeleton
import proofs.«152762_j26749056319877_1_alg».proof.Proof.Slab
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Cert.EegNorm

/-! ## The payload in stages -/

section Stages
variable {F : FTy → Type} [FloatOps F]

def kRr (P : FVec F S4x128x2048 .f32) : FVec F S4x128x2048 .f32 :=
  subf P (broadcastTo S4x128x2048
    (divf (shapeCast S4x1x2048 (multiReduction .add [1] S4x2048 P 0x00000000#32 reduces_S4x128x2048_S4x2048 (.inl rfl) rfl) shapeCasts_S4x2048_S4x1x2048)
      (broadcast S4x1x2048 (Scalar.ofBits .f32 0x43000000#32)))
    broadcasts_S4x1x2048_S4x128x2048)

def kTmean (y : FVec F S4x128x2048 .f32) : FVec F S4x128x1 .f32 :=
  divf (shapeCast S4x128x1 (multiReduction .add [2] S4x128 y 0x00000000#32 reduces_S4x128x2048_S4x128 (.inl rfl) rfl) shapeCasts_S4x128_S4x128x1)
    (broadcast S4x128x1 (Scalar.ofBits .f32 0x45000000#32))

def kCen (y : FVec F S4x128x2048 .f32) : FVec F S4x128x2048 .f32 :=
  subf y (broadcastTo S4x128x2048 (kTmean y) broadcasts_S4x128x1_S4x128x2048)

def kSd (y : FVec F S4x128x2048 .f32) : FVec F S4x128x1 .f32 :=
  sqrt (divf
    (shapeCast S4x128x1 (multiReduction .add [2] S4x128 (mulf (kCen y) (kCen y)) 0x00000000#32 reduces_S4x128x2048_S4x128 (.inl rfl) rfl) shapeCasts_S4x128_S4x128x1)
    (broadcast S4x128x1 (Scalar.ofBits .f32 0x45000000#32)))

def kSd1 (y : FVec F S4x128x2048 .f32) : FVec F S4x128x1 .f32 :=
  select (cmpf .oeq (kSd y) (broadcast S4x128x1 (Scalar.ofBits .f32 0x00000000#32)))
    (broadcast S4x128x1 (Scalar.ofBits .f32 0x3F800000#32)) (kSd y)

def kOut (P : FVec F S4x128x2048 .f32) : FVec F S4x128x2048 .f32 :=
  divf (kCen (kRr P)) (broadcastTo S4x128x2048 (kSd1 (kRr P)) broadcasts_S4x128x1_S4x128x2048)

/-- The stored value is the last stage: the body's lines substituted. -/
theorem pay_eq (P : FVec F S4x128x2048 .f32) : k0_pay1 P = kOut P := rfl

end Stages

/-- Recording `b` of a block. -/
abbrev recOfBlk (P : FVec Ideal S4x128x2048 .f32) (b : Fin 4) : Rec := fun c t => P (ix3 b c t)

/-! ## The layout operations and the lane sums at an index -/

section Reads
variable {α : Type}

/-- [4,2048] with a unit channel axis inserted: the same row-major position. -/
theorem cast_bt (v : S4x2048.Idx → α) (b : Fin 4) (t : Fin 2048) :
    shapeCast S4x1x2048 v shapeCasts_S4x2048_S4x1x2048 (ix3 b (0 : Fin 1) t) = v (ix2 b t) :=
  shapeCast_apply v _ _ _ (by
    rw [Shape.rowMajor_val_two, Shape.rowMajor_val_three]
    show b.val * 2048 + t.val = (b.val * 1 + 0) * 2048 + t.val
    omega)

/-- The unit channel axis stretched over the 128 channels. -/
theorem bcast_b1t (v : S4x1x2048.Idx → α) (b : Fin 4) (c : Fin 128) (t : Fin 2048) :
    broadcastTo S4x128x2048 v broadcasts_S4x1x2048_S4x128x2048 (ix3 b c t) = v (ix3 b (0 : Fin 1) t) :=
  broadcastTo_apply v _ _ _ fun a => match a with
    | ⟨0, _⟩ => rfl
    | ⟨1, _⟩ => rfl
    | ⟨2, _⟩ => rfl

/-- [4,128] with a unit time axis appended: the same row-major position. -/
theorem cast_bc (v : S4x128.Idx → α) (b : Fin 4) (c : Fin 128) :
    shapeCast S4x128x1 v shapeCasts_S4x128_S4x128x1 (ix3 b c (0 : Fin 1)) = v (ix2 b c) :=
  shapeCast_apply v _ _ _ (by
    rw [Shape.rowMajor_val_two, Shape.rowMajor_val_three]
    show b.val * 128 + c.val = (b.val * 128 + c.val) * 1 + 0
    omega)

/-- The unit time axis stretched over the 2048 time steps. -/
theorem bcast_bc1 (v : S4x128x1.Idx → α) (b : Fin 4) (c : Fin 128) (t : Fin 2048) :
    broadcastTo S4x128x2048 v broadcasts_S4x128x1_S4x128x2048 (ix3 b c t) = v (ix3 b c (0 : Fin 1)) :=
  broadcastTo_apply v _ _ _ fun a => match a with
    | ⟨0, _⟩ => rfl
    | ⟨1, _⟩ => rfl
    | ⟨2, _⟩ => rfl

end Reads

/-- The lane sum over the channels. -/
theorem sum_channels (P : FVec Ideal S4x128x2048 .f32) (b : Fin 4) (t : Fin 2048) :
    multiReduction .add [1] S4x2048 P 0x00000000#32 reduces_S4x128x2048_S4x2048 (.inl rfl) rfl (ix2 b t)
      = ∑ k : Fin 128, P (ix3 b k t) := by
  refine (Ideal.multiReduction_add_single P 0x00000000#32 reduces_S4x128x2048_S4x2048 (.inl rfl) rfl (ix2 b t)).trans ?_
  refine Finset.sum_congr rfl fun k _ => congrArg P (funext fun a => Fin.ext ?_)
  match a with
  | ⟨0, _⟩ => rfl
  | ⟨1, _⟩ => rfl
  | ⟨2, _⟩ => rfl

/-- The lane sum over time. -/
theorem sum_time (y : FVec Ideal S4x128x2048 .f32) (b : Fin 4) (c : Fin 128) :
    multiReduction .add [2] S4x128 y 0x00000000#32 reduces_S4x128x2048_S4x128 (.inl rfl) rfl (ix2 b c)
      = ∑ k : Fin 2048, y (ix3 b c k) := by
  refine (Ideal.multiReduction_add_single y 0x00000000#32 reduces_S4x128x2048_S4x128 (.inl rfl) rfl (ix2 b c)).trans ?_
  refine Finset.sum_congr rfl fun k _ => congrArg y (funext fun a => Fin.ext ?_)
  match a with
  | ⟨0, _⟩ => rfl
  | ⟨1, _⟩ => rfl
  | ⟨2, _⟩ => rfl

/-! ## The stages at an index -/

theorem kRr_apply (P : FVec Ideal S4x128x2048 .f32) (b : Fin 4) (c : Fin 128) (t : Fin 2048) :
    kRr P (ix3 b c t) = reref (recOfBlk P b) c t := by
  unfold kRr reref
  rw [subf_apply, bcast_b1t, divf_apply, cast_bt, broadcast_apply, sum_channels]
  rfl

theorem kTmean_apply (y : FVec Ideal S4x128x2048 .f32) (b : Fin 4) (c : Fin 128) :
    kTmean y (ix3 b c (0 : Fin 1)) = Ideal.div (∑ k : Fin 2048, y (ix3 b c k)) nT := by
  unfold kTmean
  rw [divf_apply, cast_bc, broadcast_apply, sum_time]
  rfl

theorem kCen_apply (y : FVec Ideal S4x128x2048 .f32) (b : Fin 4) (c : Fin 128) (t : Fin 2048) :
    kCen y (ix3 b c t) = y (ix3 b c t) - Ideal.div (∑ k : Fin 2048, y (ix3 b c k)) nT := by
  unfold kCen
  rw [subf_apply, bcast_bc1, kTmean_apply]

theorem kCen_kRr_apply (P : FVec Ideal S4x128x2048 .f32) (b : Fin 4) (c : Fin 128) (t : Fin 2048) :
    kCen (kRr P) (ix3 b c t) = centred (recOfBlk P b) c t := by
  rw [kCen_apply, kRr_apply]
  unfold centred
  exact congrArg (fun s => reref (recOfBlk P b) c t - Ideal.div s nT) (Finset.sum_congr rfl fun k _ => kRr_apply P b c k)

theorem kSd_kRr_apply (P : FVec Ideal S4x128x2048 .f32) (b : Fin 4) (c : Fin 128) :
    kSd (kRr P) (ix3 b c (0 : Fin 1)) = spread (recOfBlk P b) c := by
  unfold kSd spread
  show FloatOps.sqrt (divf _ _ (ix3 b c (0 : Fin 1))) = _
  rw [Ideal.sqrt_def, divf_apply, cast_bc, broadcast_apply, sum_time]
  exact congrArg (fun s => Ideal.sqrt (Ideal.div s nT))
    (Finset.sum_congr rfl fun k _ => by rw [mulf_apply, kCen_kRr_apply])

theorem kSd1_kRr_apply (P : FVec Ideal S4x128x2048 .f32) (b : Fin 4) (c : Fin 128) :
    kSd1 (kRr P) (ix3 b c (0 : Fin 1))
      = Scalar.select (Ideal.cmp .oeq (spread (recOfBlk P b) c) zeroW) oneW (spread (recOfBlk P b) c) := by
  unfold kSd1
  rw [select_apply, cmpf_apply, broadcast_apply, broadcast_apply, kSd_kRr_apply]
  rfl

/-- THE PAYLOAD AT AN INDEX: the z-score of the block's recording at that batch. -/
theorem pay_apply (P : FVec Ideal S4x128x2048 .f32) (b : Fin 4) (c : Fin 128) (t : Fin 2048) :
    k0_pay1 (F := Ideal) P (ix3 b c t) = zscore (recOfBlk P b) c t := by
  rw [pay_eq]
  unfold kOut zscore
  rw [divf_apply, bcast_bc1, kCen_kRr_apply, kSd1_kRr_apply]

end Cert.KernelIdeal.Hand

end
-- ==== Proof.KernelValue.lean ====
/-
  From the kernel's blocks to its result array.

  The grid has 64 points; point t stages recordings 4t … 4t+3 of the argument (all channels, all time steps) and
  writes back the same rows of the result. A recording's z-scores depend on that recording alone, and a block holds
  whole recordings, so what point t writes back is block t of `G` of the argument: an element of the block at
  (b, c, t') reads the argument at (4t + b, c, t'), and the payload there is the z-score of recording 4t + b.
  The 64 blocks tile the result array (recording r lies in the block of point r / 4), so after the run the result
  array is `G` of the argument, which is left as launched.
-/
import proofs.«152762_j26749056319877_1_alg».proof.Proof.Gen.KernelIdeal.Value
import proofs.«152762_j26749056319877_1_alg».proof.Proof.KernelPay
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.EegNorm

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps over the grid: both windows' block index is (t, 0, 0) at point t. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The payload of a block whose recordings are recordings 4p … 4p+3 of an array, at an element, is `G` of the array at
    the element's place in the array. -/
theorem block_value (P : FVec Ideal S4x128x2048 .f32) (x : Arr.Idx → EReal) (p : Nat)
    (hP : ∀ (y : S4x128x2048.Idx) (i : Arr.Idx), (i 0).val = p * 4 + (y 0).val → (i 1).val = (y 1).val → (i 2).val = (y 2).val → P y = x i)
    (y : S4x128x2048.Idx) (i : Arr.Idx) (h0 : (i 0).val = p * 4 + (y 0).val) (h1 : (i 1).val = (y 1).val) (h2 : (i 2).val = (y 2).val) :
    k0_pay1 (F := Ideal) P y = G x i := by
  obtain ⟨b, c, t, rfl⟩ : ∃ (b : Fin 4) (c : Fin 128) (t : Fin 2048), y = ix3 b c t := ⟨y 0, y 1, y 2, eq_ix3 y⟩
  obtain ⟨r, c', t', rfl⟩ : ∃ (r : Fin 256) (c' : Fin 128) (t' : Fin 2048), i = ix3 r c' t' := ⟨i 0, i 1, i 2, eq_ix3 i⟩
  obtain rfl : c' = c := Fin.ext h1
  obtain rfl : t' = t := Fin.ext h2
  rw [pay_apply, G_apply]
  have hrec : recOfBlk P b = recAt x r := funext fun c₁ => funext fun t₁ => hP (ix3 b c₁ t₁) (ix3 r c₁ t₁) h0 rfl rfl
  rw [hrec]

/-- The input window's block at point t, at an element, is the argument at that element's place in the array. -/
theorem iblk_apply (c : Dev nD) (t : Fin cfg0.N) (y : S4x128x2048.Idx) (i : Arr.Idx)
    (h0 : (i 0).val = win0_1.index t (0 : Fin 3) * 4 + (y 0).val) (h1 : (i 1).val = (y 1).val) (h2 : (i 2).val = (y 2).val) :
    (iblk m c 0 t : Vec Ideal S4x128x2048 .f32) y = (m ((c : Thread nD τ).loc main_arg0) : Arr.Idx → EReal) i := by
  obtain ⟨e0, e1, e2, e3, e4, e5⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 4 + 1 * (y 0).val = (i 0).val; omega
  | ⟨1, _⟩ => show win0_0.index t (1 : Fin 3) * 128 + 1 * (y 1).val = (i 1).val; omega
  | ⟨2, _⟩ => show win0_0.index t (2 : Fin 3) * 2048 + 1 * (y 2).val = (i 2).val; omega

/-- WHAT POINT t WRITES BACK is block t of `G` of the argument. -/
theorem flushed_eq (c : Dev nD) (t : Fin cfg0.N) :
    (dats m 0 c).flushed 1 t
      = ((cfg0.win 1).blk t).view.read (Elt Ideal) (G (m ((c : Thread nD τ).loc main_arg0) : Arr.Idx → EReal)) := by
  rw [flushed1]
  unfold out0_1
  rw [View.canon_unit_zero hz]
  simp only [View.ld_unit_zero (S := S4x128x2048) hz]
  funext j
  show k0_pay1 (F := Ideal) (iblk m c 0 t) j = G (m ((c : Thread nD τ).loc main_arg0) : Arr.Idx → EReal) (((cfg0.win 1).blk t).view.emb j)
  refine block_value (iblk m c 0 t) (m ((c : Thread nD τ).loc main_arg0) : Arr.Idx → EReal) (win0_1.index t (0 : Fin 3))
    (fun y i h0 h1 h2 => iblk_apply m c t y i h0 h1 h2) j (((cfg0.win 1).blk t).view.emb j) ?_ ?_ ?_
  · show win0_1.index t (0 : Fin 3) * 4 + 1 * (j 0).val = win0_1.index t (0 : Fin 3) * 4 + (j 0).val; omega
  · obtain ⟨e0, e1, e2, e3, e4, e5⟩ := idx_facts t
    show win0_1.index t (1 : Fin 3) * 128 + 1 * (j 1).val = (j 1).val; omega
  · obtain ⟨e0, e1, e2, e3, e4, e5⟩ := idx_facts t
    show win0_1.index t (2 : Fin 3) * 2048 + 1 * (j 2).val = (j 2).val; omega

/-- An index of the array is in point t's block iff each coordinate is in the block's range on its axis. -/
theorem mem_blk (t : Fin cfg0.N) (i : S256x128x2048.Idx) :
    i ∈ ((cfg0.win 1).blk t).view.set ↔ ∀ a : Fin 3, win0_1.index t a * S4x128x2048.size a ≤ (i a).val ∧ (i a).val < win0_1.index t a * S4x128x2048.size a + S4x128x2048.size a := by
  show i ∈ ((View.whole main_v0).slice (win0_1.rect t)).set ↔ _
  rw [View.set_slice_whole, Rect.mem_set_unit]
  exact Iff.rfl

/-- Every index of the result array lies in the block of the point its recording belongs to. -/
theorem cover (i : S256x128x2048.Idx) :
    ∃ t : Fin cfg0.N, (cfg0.win 1).flush t = true ∧ i ∈ ((cfg0.win 1).blk t).view.set := by
  have hi0 : (i 0).val < 256 := (i 0).isLt
  have hi1 : (i 1).val < 128 := (i 1).isLt
  have hi2 : (i 2).val < 2048 := (i 2).isLt
  have hN : cfg0.N = 64 := N_0
  have ht : (i 0).val / 4 < cfg0.N := by rw [hN]; omega
  obtain ⟨e0, e1, e2, e3, e4, e5⟩ := idx_facts ⟨(i 0).val / 4, ht⟩
  have e3' : win0_1.index ⟨(i 0).val / 4, ht⟩ (0 : Fin 3) = (i 0).val / 4 := e3
  refine ⟨⟨(i 0).val / 4, ht⟩, flush0_1 _, ?_⟩
  rw [mem_blk]
  intro a
  match a with
  | ⟨0, _⟩ => show win0_1.index ⟨(i 0).val / 4, ht⟩ (0 : Fin 3) * 4 ≤ (i 0).val ∧ (i 0).val < win0_1.index ⟨(i 0).val / 4, ht⟩ (0 : Fin 3) * 4 + 4; omega
  | ⟨1, _⟩ => show win0_1.index ⟨(i 0).val / 4, ht⟩ (1 : Fin 3) * 128 ≤ (i 1).val ∧ (i 1).val < win0_1.index ⟨(i 0).val / 4, ht⟩ (1 : Fin 3) * 128 + 128; omega
  | ⟨2, _⟩ => show win0_1.index ⟨(i 0).val / 4, ht⟩ (2 : Fin 3) * 2048 ≤ (i 2).val ∧ (i 2).val < win0_1.index ⟨(i 0).val / 4, ht⟩ (2 : Fin 3) * 2048 + 2048; omega

/-- THE RESULT ARRAY after the run is `G` of the argument as launched. -/
theorem final (c : Dev nD) :
    (dats m 0 c).arrAt 1 cfg0.N = G (m ((c : Thread nD τ).loc main_arg0) : Arr.Idx → EReal) :=
  (dats m 0 c).arrAt_eq_of_cover 1 (G (m ((c : Thread nD τ).loc main_arg0) : Arr.Idx → EReal)) (fun t _ => flushed_eq m c t) cover

/-- Every weakly fair execution of the kernel's program terminates with the result array at `G` of the argument,
    the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0) : Arr.Idx → EReal)
      ∧ r.2.mem ((c : Thread nD τ).loc main_arg0) = m ((c : Thread nD τ).loc main_arg0) :=
  (θ_run defs _ _).mono (fun _ h c => ⟨(h c).1.trans (final m c), (h c).2⟩) (run_blocks m ρ)

end Cert.KernelIdeal.Hand

end
-- ==== Proof.RefTerm.lean ====
/-
  The reference program's result as one term of its argument array, built in the stages its text has:
  the channel mean removed (`rr`), the mean over time with the reduced axis kept (`tmean`), the centred array
  (`cen`), the population variance as jnp writes it — the sum of squares over "the time-step count minus the
  degrees of freedom", guarded by that divisor being positive, the not-a-number pattern otherwise (`var`) —,
  its root (`sd`), 1 in place of a zero root (`sd1`), and the quotient (`refOut`). Stated at any float instance:
  the run in the next module is about the program's text, not about its value.
-/
import proofs.«152762_j26749056319877_1_alg».proof.Proof.Gen.ReferenceIdeal

noncomputable section

namespace Cert.ReferenceIdeal.Hand

open Cert.ReferenceIdeal Cert.ReferenceIdeal.Gen Idealize.ShloMosaic

variable {F : FTy → Type} [FloatOps F]

/-- Stage one: each sample minus the mean over the channels at its batch and time step. -/
def rr (x : FVec F S256x128x2048 .f32) : FVec F S256x128x2048 .f32 :=
  subf x (broadcastInDim S256x128x2048 ![0, 1, 2] bcast_S256x1x2048_S256x128x2048_0_1_2
    (Host.divf
      (broadcastInDim S256x1x2048 ![0, 2] bcast_S256x2048_S256x1x2048_0_2
        (Host.reduceAdd x (constant S_ .f32 0x00000000#32) reducesTo_S256x128x2048_S256x2048_d1 h_S_))
      (broadcastInDim S256x1x2048 ![] bcast_S_S256x1x2048 (constant S_ .f32 0x43000000#32))))

/-- The mean over time of every (batch, channel) row, the reduced axis kept as a unit axis. -/
def tmean (y : FVec F S256x128x2048 .f32) : FVec F S256x128x1 .f32 :=
  Host.divf
    (broadcastInDim S256x128x1 ![0, 1] bcast_S256x128_S256x128x1_0_1
      (Host.reduceAdd y (constant S_ .f32 0x00000000#32) reducesTo_S256x128x2048_S256x128_d2 h_S_))
    (broadcastInDim S256x128x1 ![] bcast_S_S256x128x1 (constant S_ .f32 0x45000000#32))

/-- Each sample minus its row's mean over time. -/
def cen (y : FVec F S256x128x2048 .f32) : FVec F S256x128x2048 .f32 :=
  subf y (broadcastInDim S256x128x2048 ![0, 1, 2] bcast_S256x128x1_S256x128x2048_0_1_2 (tmean y))

/-- The variance's divisor: the time-step count minus the degrees of freedom (the integer 0, converted). -/
def ddofN : FVec F S_ .f32 :=
  subf (constant S_ .f32 0x45000000#32) (sitofp .f32 (constantI S_ 32 0#32))

/-- The population variance over time of every row, as jnp.var spells it. -/
def var (y : FVec F S256x128x2048 .f32) : FVec F S256x128x1 .f32 :=
  select (broadcastInDim S256x128x1 ![] bcast_S_S256x128x1 (cmpf .ogt (ddofN (F := F)) (constant S_ .f32 0x00000000#32)))
    (Host.divf
      (broadcastInDim S256x128x1 ![0, 1] bcast_S256x128_S256x128x1_0_1
        (Host.reduceAdd (mulf (cen y) (cen y)) (constant S_ .f32 0x00000000#32) reducesTo_S256x128x2048_S256x128_d2 h_S_))
      (broadcastInDim S256x128x1 ![] bcast_S_S256x128x1 (ddofN (F := F))))
    (broadcastInDim S256x128x1 ![] bcast_S_S256x128x1 (id (constant S_ .f32 0x7FC00000#32)))

/-- The standard deviation of every row. -/
def sd (y : FVec F S256x128x2048 .f32) : FVec F S256x128x1 .f32 := Host.sqrt (var y)

/-- The standard deviation, 1 where it is 0. -/
def sd1 (y : FVec F S256x128x2048 .f32) : FVec F S256x128x1 .f32 :=
  select (cmpf .oeq (sd y) (broadcastInDim S256x128x1 ![] bcast_S_S256x128x1 (constant S_ .f32 0x00000000#32)))
    (broadcastInDim S256x128x1 ![] bcast_S_S256x128x1 (constant S_ .f32 0x3F800000#32)) (sd y)

/-- The reference's result from its argument. -/
def refOut (x : FVec F S256x128x2048 .f32) : FVec F S256x128x2048 .f32 :=
  Host.divf (cen (rr x)) (broadcastInDim S256x128x2048 ![0, 1, 2] bcast_S256x128x1_S256x128x2048_0_1_2 (sd1 (rr x)))

end Cert.ReferenceIdeal.Hand

end
-- ==== Proof.RefRun.lean ====
/-
  The reference program as a straight line and what it leaves in its result.

  @main calls three functions jax outlined: the standard deviation, which calls the variance, which calls a select
  with a scalar filler; and a second, plain select. Each call executes the callee's operations on the caller's
  buffers, so @main is one list of 49 host operations: its own 15 up to the call, the variance's 20, the inner
  select's 3, the root, 5 more of @main's, the second select, and @main's last 4. Every weakly fair execution of
  that list terminates with each buffer at the fold of the operations' results over the launch contents; at the
  result buffer that fold is `refOut` of the argument, and the argument's buffer is never written.
-/
import proofs.«152762_j26749056319877_1_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the three calls unfolded onto their buffer records. -/
abbrev ops : List (HloOp τ sig (Elt F)) :=
  [
    nullary main_cst (constant S_ .f32 0x00000000#32),
    binary main_arg0 main_cst main_v0 ((fun x v => Host.reduceAdd x v reducesTo_S256x128x2048_S256x2048_d1 h_S_) : (⟨S256x128x2048, .f32⟩ : BufTy).Contents (Elt F) → (⟨S_, .f32⟩ : BufTy).Contents (Elt F) → (⟨S256x2048, .f32⟩ : BufTy).Contents (Elt F)),
    unary main_v0 main_v1 (broadcastInDim S256x1x2048 ![0, 2] bcast_S256x2048_S256x1x2048_0_2 : (⟨S256x2048, .f32⟩ : BufTy).Contents (Elt F) → (⟨S256x1x2048, .f32⟩ : BufTy).Contents (Elt F)),
    nullary main_cst_0 (constant S_ .f32 0x43000000#32),
    unary main_cst_0 main_v2 (broadcastInDim S256x1x2048 ![] bcast_S_S256x1x2048 : (⟨S_, .f32⟩ : BufTy).Contents (Elt F) → (⟨S256x1x2048, .f32⟩ : BufTy).Contents (Elt F)),
    binary main_v1 main_v2 main_v3 (Host.divf : (⟨S256x1x2048, .f32⟩ : BufTy).Contents (Elt F) → (⟨S256x1x2048, .f32⟩ : BufTy).Contents (Elt F) → (⟨S256x1x2048, .f32⟩ : BufTy).Contents (Elt F)),
    unary main_v3 main_v4 (broadcastInDim S256x128x2048 ![0, 1, 2] bcast_S256x1x2048_S256x128x2048_0_1_2 : (⟨S256x1x2048, .f32⟩ : BufTy).Contents (Elt F) → (⟨S256x128x2048, .f32⟩ : BufTy).Contents (Elt F)),
    binary main_arg0 main_v4 main_v5 (subf : (⟨S256x128x2048, .f32⟩ : BufTy).Contents (Elt F) → (⟨S256x128x2048, .f32⟩ : BufTy).Contents (Elt F) → (⟨S256x128x2048, .f32⟩ : BufTy).Contents (Elt F)),
    nullary main_cst_1 (constant S_ .f32 0x00000000#32),
    binary main_v5 main_cst_1 main_v6 ((fun x v => Host.reduceAdd x v reducesTo_S256x128x2048_S256x128_d2 h_S_) : (⟨S256x128x2048, .f32⟩ : BufTy).Contents (Elt F) → (⟨S_, .f32⟩ : BufTy).Contents (Elt F) → (⟨S256x128, .f32⟩ : BufTy).Contents (Elt F)),
    unary main_v6 main_v7 (broadcastInDim S256x128x1 ![0, 1] bcast_S256x128_S256x128x1_0_1 : (⟨S256x128, .f32⟩ : BufTy).Contents (Elt F) → (⟨S256x128x1, .f32⟩ : BufTy).Contents (Elt F)),
    nullary main_cst_2 (constant S_ .f32 0x45000000#32),
    unary main_cst_2 main_v8 (broadcastInDim S256x128x1 ![] bcast_S_S256x128x1 : (⟨S_, .f32⟩ : BufTy).Contents (Elt F) → (⟨S256x128x1, .f32⟩ : BufTy).Contents (Elt F)),
    binary main_v7 main_v8 main_v9 (Host.divf : (⟨S256x128x1, .f32⟩ : BufTy).Contents (Elt F) → (⟨S256x128x1, .f32⟩ : BufTy).Contents (Elt F) → (⟨S256x128x1, .f32⟩ : BufTy).Contents (Elt F)),
    nullary main_c (constantI S_ 32 0#32),
    TRef.nullary main_call0.call0.cst (constant S_ .f32 0x00000000#32),
    TRef.binary (.of main_v5) main_call0.call0.cst main_call0.call0.v0 (fun x v => Host.reduceAdd x v reducesTo_S256x128x2048_S256x128_d2 h_S_),
    TRef.unary main_call0.call0.v0 main_call0.call0.v1 (broadcastInDim S256x128x1 ![0, 1] bcast_S256x128_S256x128x1_0_1),
    TRef.nullary main_call0.call0.cst_0 (constant S_ .f32 0x45000000#32),
    TRef.unary main_call0.call0.cst_0 main_call0.call0.v2 (broadcastInDim S256x128x1 ![] bcast_S_S256x128x1),
    TRef.binary main_call0.call0.v1 main_call0.call0.v2 main_call0.call0.v3 Host.divf,
    TRef.unary main_call0.call0.v3 main_call0.call0.v4 (broadcastInDim S256x128x2048 ![0, 1, 2] bcast_S256x128x1_S256x128x2048_0_1_2),
    TRef.binary (.of main_v5) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x45000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S256x128x2048_S256x128_d2 h_S_),
    TRef.unary main_call0.call0.v9 main_call0.call0.v10 (broadcastInDim S256x128x1 ![0, 1] bcast_S256x128_S256x128x1_0_1),
    TRef.unary main_call0.call0.v8 main_call0.call0.v11 (broadcastInDim S256x128x1 ![] bcast_S_S256x128x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S256x128x1 ![] bcast_S_S256x128x1),
    TRef.ternary main_call0.call0.v13 main_call0.call0.v12 main_call0.call0.call0.v1 main_call0.call0.call0.v2 (fun p a b => select (broadcastInDim S256x128x1 ![] bcast_S_S256x128x1 p) a b),
    TRef.unary main_call0.call0.call0.v2 main_call0.v1 Host.sqrt,
    nullary main_cst_3 (constant S_ .f32 0x00000000#32),
    unary main_cst_3 main_v11 (broadcastInDim S256x128x1 ![] bcast_S_S256x128x1 : (⟨S_, .f32⟩ : BufTy).Contents (Elt F) → (⟨S256x128x1, .f32⟩ : BufTy).Contents (Elt F)),
    binary main_v10 main_v11 main_v12 (cmpf .oeq : (⟨S256x128x1, .f32⟩ : BufTy).Contents (Elt F) → (⟨S256x128x1, .f32⟩ : BufTy).Contents (Elt F) → (⟨S256x128x1, .i1⟩ : BufTy).Contents (Elt F)),
    nullary main_cst_4 (constant S_ .f32 0x3F800000#32),
    unary main_cst_4 main_v13 (broadcastInDim S256x128x1 ![] bcast_S_S256x128x1 : (⟨S_, .f32⟩ : BufTy).Contents (Elt F) → (⟨S256x128x1, .f32⟩ : BufTy).Contents (Elt F)),
    TRef.ternary (.of main_v12) (.of main_v13) (.of main_v10) main_call1.v0 select,
    unary main_v9 main_v15 (broadcastInDim S256x128x2048 ![0, 1, 2] bcast_S256x128x1_S256x128x2048_0_1_2 : (⟨S256x128x1, .f32⟩ : BufTy).Contents (Elt F) → (⟨S256x128x2048, .f32⟩ : BufTy).Contents (Elt F)),
    binary main_v5 main_v15 main_v16 (subf : (⟨S256x128x2048, .f32⟩ : BufTy).Contents (Elt F) → (⟨S256x128x2048, .f32⟩ : BufTy).Contents (Elt F) → (⟨S256x128x2048, .f32⟩ : BufTy).Contents (Elt F)),
    unary main_v14 main_v17 (broadcastInDim S256x128x2048 ![0, 1, 2] bcast_S256x128x1_S256x128x2048_0_1_2 : (⟨S256x128x1, .f32⟩ : BufTy).Contents (Elt F) → (⟨S256x128x2048, .f32⟩ : BufTy).Contents (Elt F)),
    binary main_v16 main_v17 main_v18 (Host.divf : (⟨S256x128x2048, .f32⟩ : BufTy).Contents (Elt F) → (⟨S256x128x2048, .f32⟩ : BufTy).Contents (Elt F) → (⟨S256x128x2048, .f32⟩ : BufTy).Contents (Elt F)) ]

-- forty-nine binds re-associated: the rewrite under the chain recurses once per statement
set_option maxRecDepth 2048 in
/-- @main is that straight line: the callees' definitions unfolded at their calls, sequencing re-associated. -/
theorem main_eq (c : Dev nD) : main (F := F) c = seq ops := by
  simp only [main, fn_std.body, fn_var.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., nullary_bufs_sub .., unary_bufs_sub .., binary_bufs_sub ..,
    nullary_bufs_sub .., unary_bufs_sub .., ternary_bufs_sub .., unary_bufs_sub .., binary_bufs_sub .., unary_bufs_sub ..,
    binary_bufs_sub ..⟩

/-- Every weakly fair execution of @main terminates, each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold at the result buffer is `refOut` of the argument's contents: each operation's result is read at its own
    buffer and passed over at every other, and what is left is the stages of RefTerm composed. -/
theorem out_eq (V : Valuation τ sig (Elt F)) :
    after ops V (main_v18 : DevRef τ sig) = refOut (V (main_arg0 : DevRef τ sig)) := by
  after_results_simp
  rfl

/-- No operation writes the argument's buffer. -/
theorem arg0_eq (V : Valuation τ sig (Elt F)) :
    after ops V (main_arg0 : DevRef τ sig) = V (main_arg0 : DevRef τ sig) := by
  after_results_simp

/-- Every weakly fair execution of the reference terminates with its result at `refOut` of the argument as launched,
    the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v18).trans (out_eq _), (h c main_arg0).trans (arg0_eq _)⟩)
    (run_fold m ρ)

end Cert.ReferenceIdeal.Hand

end
-- ==== Proof.RefValue.lean ====
/-
  The reference's result at an index is the z-score of the recording that index lies in.

  Each host operation is read at an index: a broadcast that adds or stretches a unit axis reads its operand at the
  same coordinates with 0 on the unit axis, a broadcast of a scalar reads the scalar, and a sum over one axis is the
  initial value 0 plus the sum over that axis's coordinate. With these the stages of RefTerm, read at batch b, are the
  stages of the slab specification at the recording `fun c t => x (b, c, t)`. In the variance the divisor
  "2048 minus zero degrees of freedom" is 2048 and positive, so the guarded select keeps the quotient.
-/
import proofs.«152762_j26749056319877_1_alg».proof.Proof.RefTerm
import proofs.«152762_j26749056319877_1_alg».proof.Proof.Slab
import Idealize.ShloMosaic.Lib.ValueIdx
import Idealize.ShloMosaic.Lib.IdealHost
import Idealize.ShloMosaic.Lib.Pipeline.Value

noncomputable section

namespace Cert.ReferenceIdeal.Hand

open Cert.ReferenceIdeal Cert.ReferenceIdeal.Gen Idealize.ShloMosaic Idealize.ShloMosaic.ValueIdx Cert.EegNorm

/-- Batch `b` of the argument as one recording. -/
abbrev recOf (x : FVec Ideal S256x128x2048 .f32) (b : Fin 256) : Rec := fun c t => x (ix3 b c t)

/-! ## The host operations at an index -/

section Reads
variable {α : Type}

/-- A scalar broadcast to [256,1,2048] reads the scalar. -/
theorem bcast_scalar_1 (v : S_.Idx → α) (j : S256x1x2048.Idx) :
    broadcastInDim S256x1x2048 ![] bcast_S_S256x1x2048 v j = v ix0 :=
  broadcastInDim_scalar_apply _ v j

/-- A scalar broadcast to [256,128,1] reads the scalar. -/
theorem bcast_scalar_2 (v : S_.Idx → α) (j : S256x128x1.Idx) :
    broadcastInDim S256x128x1 ![] bcast_S_S256x128x1 v j = v ix0 :=
  broadcastInDim_scalar_apply _ v j

/-- [256,2048] with a unit channel axis inserted. -/
theorem bcast_bt (v : S256x2048.Idx → α) (b : Fin 256) (t : Fin 2048) :
    broadcastInDim S256x1x2048 ![0, 2] bcast_S256x2048_S256x1x2048_0_2 v (ix3 b (0 : Fin 1) t) = v (ix2 b t) :=
  broadcastInDim_apply _ _ v _ _ fun a => match a with
    | ⟨0, _⟩ => rfl
    | ⟨1, _⟩ => rfl

/-- The unit channel axis stretched over the 128 channels. -/
theorem bcast_b1t (v : S256x1x2048.Idx → α) (b : Fin 256) (c : Fin 128) (t : Fin 2048) :
    broadcastInDim S256x128x2048 ![0, 1, 2] bcast_S256x1x2048_S256x128x2048_0_1_2 v (ix3 b c t) = v (ix3 b (0 : Fin 1) t) :=
  broadcastInDim_apply _ _ v _ _ fun a => match a with
    | ⟨0, _⟩ => rfl
    | ⟨1, _⟩ => rfl
    | ⟨2, _⟩ => rfl

/-- [256,128] with a unit time axis appended. -/
theorem bcast_bc (v : S256x128.Idx → α) (b : Fin 256) (c : Fin 128) :
    broadcastInDim S256x128x1 ![0, 1] bcast_S256x128_S256x128x1_0_1 v (ix3 b c (0 : Fin 1)) = v (ix2 b c) :=
  broadcastInDim_apply _ _ v _ _ fun a => match a with
    | ⟨0, _⟩ => rfl
    | ⟨1, _⟩ => rfl

/-- The unit time axis stretched over the 2048 time steps. -/
theorem bcast_bc1 (v : S256x128x1.Idx → α) (b : Fin 256) (c : Fin 128) (t : Fin 2048) :
    broadcastInDim S256x128x2048 ![0, 1, 2] bcast_S256x128x1_S256x128x2048_0_1_2 v (ix3 b c t) = v (ix3 b c (0 : Fin 1)) :=
  broadcastInDim_apply _ _ v _ _ fun a => match a with
    | ⟨0, _⟩ => rfl
    | ⟨1, _⟩ => rfl
    | ⟨2, _⟩ => rfl

end Reads

/-- The host's sum over the channels, from the initial value 0. -/
theorem sum_channels (x : FVec Ideal S256x128x2048 .f32) (b : Fin 256) (t : Fin 2048) :
    Host.reduceAdd x (constant (F := Ideal) S_ .f32 0x00000000#32) reducesTo_S256x128x2048_S256x2048_d1 h_S_ (ix2 b t)
      = ∑ k : Fin 128, x (ix3 b k t) := by
  rw [hostReduceAdd_apply, Ideal.hostReduceAdd_single _ (by decide : S256x128x2048.Reduces [1] S256x2048), constant_apply,
    Ideal.ofBits_zero_f32, zero_add]
  refine Finset.sum_congr rfl fun k _ => congrArg x (funext fun a => Fin.ext ?_)
  match a with
  | ⟨0, _⟩ => rfl
  | ⟨1, _⟩ => rfl
  | ⟨2, _⟩ => rfl

/-- The host's sum over time, from the initial value 0. -/
theorem sum_time (y : FVec Ideal S256x128x2048 .f32) (b : Fin 256) (c : Fin 128) :
    Host.reduceAdd y (constant (F := Ideal) S_ .f32 0x00000000#32) reducesTo_S256x128x2048_S256x128_d2 h_S_ (ix2 b c)
      = ∑ k : Fin 2048, y (ix3 b c k) := by
  rw [hostReduceAdd_apply, Ideal.hostReduceAdd_single _ (by decide : S256x128x2048.Reduces [2] S256x128), constant_apply,
    Ideal.ofBits_zero_f32, zero_add]
  refine Finset.sum_congr rfl fun k _ => congrArg y (funext fun a => Fin.ext ?_)
  match a with
  | ⟨0, _⟩ => rfl
  | ⟨1, _⟩ => rfl
  | ⟨2, _⟩ => rfl

/-! ## The stages at an index -/

theorem rr_apply (x : FVec Ideal S256x128x2048 .f32) (b : Fin 256) (c : Fin 128) (t : Fin 2048) :
    rr x (ix3 b c t) = reref (recOf x b) c t := by
  unfold rr reref
  rw [subf_apply, bcast_b1t, hostDivf_apply, bcast_bt, bcast_scalar_1, sum_channels, constant_apply]

theorem tmean_apply (y : FVec Ideal S256x128x2048 .f32) (b : Fin 256) (c : Fin 128) :
    tmean y (ix3 b c (0 : Fin 1)) = Ideal.div (∑ k : Fin 2048, y (ix3 b c k)) nT := by
  unfold tmean
  rw [hostDivf_apply, bcast_bc, bcast_scalar_2, sum_time, constant_apply]

theorem cen_apply (y : FVec Ideal S256x128x2048 .f32) (b : Fin 256) (c : Fin 128) (t : Fin 2048) :
    cen y (ix3 b c t) = y (ix3 b c t) - Ideal.div (∑ k : Fin 2048, y (ix3 b c k)) nT := by
  unfold cen
  rw [subf_apply, bcast_bc1, tmean_apply]

theorem cen_rr_apply (x : FVec Ideal S256x128x2048 .f32) (b : Fin 256) (c : Fin 128) (t : Fin 2048) :
    cen (rr x) (ix3 b c t) = centred (recOf x b) c t := by
  rw [cen_apply, rr_apply]
  unfold centred
  exact congrArg (fun s => reref (recOf x b) c t - Ideal.div s nT) (Finset.sum_congr rfl fun k _ => rr_apply x b c k)

/-- The variance's divisor at its one index. -/
theorem ddofN_apply : ddofN (F := Ideal) ix0 = nT := by
  unfold ddofN
  rw [subf_apply, constant_apply, sitofp_apply]
  exact nT_sub_ddof

theorem var_apply (y : FVec Ideal S256x128x2048 .f32) (b : Fin 256) (c : Fin 128) :
    var y (ix3 b c (0 : Fin 1)) = Ideal.div (∑ k : Fin 2048, cen y (ix3 b c k) * cen y (ix3 b c k)) nT := by
  unfold var
  rw [select_apply, bcast_scalar_2, cmpf_apply, ddofN_apply, constant_apply]
  rw [show FloatOps.cmpf (F := Ideal) (φ := .f32) .ogt nT (Ideal.ofBits .f32 0x00000000#32) = 1#1 from nT_pos, select_one]
  rw [hostDivf_apply, bcast_bc, bcast_scalar_2, ddofN_apply, sum_time]
  rfl

theorem sd_rr_apply (x : FVec Ideal S256x128x2048 .f32) (b : Fin 256) (c : Fin 128) :
    sd (rr x) (ix3 b c (0 : Fin 1)) = spread (recOf x b) c := by
  unfold sd spread
  show FloatOps.hostUnary .sqrt (var (rr x) (ix3 b c (0 : Fin 1))) = _
  rw [Ideal.hostUnary_sqrt_def, var_apply]
  exact congrArg (fun s => Ideal.sqrt (Ideal.div s nT)) (Finset.sum_congr rfl fun k _ => by rw [cen_rr_apply])

theorem sd1_rr_apply (x : FVec Ideal S256x128x2048 .f32) (b : Fin 256) (c : Fin 128) :
    sd1 (rr x) (ix3 b c (0 : Fin 1))
      = Scalar.select (Ideal.cmp .oeq (spread (recOf x b) c) zeroW) oneW (spread (recOf x b) c) := by
  unfold sd1
  rw [select_apply, cmpf_apply, bcast_scalar_2, bcast_scalar_2, constant_apply, constant_apply, sd_rr_apply]
  rfl

/-- THE REFERENCE AT AN INDEX: the z-score of the recording at that batch. -/
theorem refOut_apply (x : FVec Ideal S256x128x2048 .f32) (b : Fin 256) (c : Fin 128) (t : Fin 2048) :
    refOut x (ix3 b c t) = zscore (recOf x b) c t := by
  unfold refOut zscore
  rw [hostDivf_apply, bcast_bc1, cen_rr_apply, sd1_rr_apply]

/-- The reference's result is `G` of its argument: every index lies in one recording. -/
theorem refOut_eq (x : FVec Ideal S256x128x2048 .f32) : refOut x = G x := by
  funext i
  obtain ⟨b, c, t, rfl⟩ : ∃ (b : Fin 256) (c : Fin 128) (t : Fin 2048), i = ix3 b c t := ⟨i 0, i 1, i 2, eq_ix3 i⟩
  exact refOut_apply x b c t

end Cert.ReferenceIdeal.Hand

end
-- ==== Proof.lean ====
/-
  Two-stage normalisation of 256 recordings (128 channels by 2048 time steps): the kernel against its jnp reference,
  over the extended reals.

  Both programs subtract, at every time step, the mean over the channels, and then z-score every channel along time:
  the mean over time removed, divided by the root of the mean square of what is left, with 1 in place of a root that
  is 0. The kernel does it on blocks of 4 recordings, one grid point after another; the reference on the whole array,
  with the variance spelt as jnp spells it. Read at an index, each computes the z-score of the recording the index
  lies in (`Cert.EegNorm.G`): the kernel block by block, the 64 blocks tiling the result; the reference operation by
  operation along its straight-line run. The two sides are the same operations on the same extended reals, so
  nothing about the input's finiteness is used.

  The kernel's and its idealization's frames are the generated ones; the reference's frame is its run with the result
  dropped; the ideal pass rewrote nothing, so there is nothing to preserve.
-/
import proofs.«152762_j26749056319877_1_alg».proof.Defs
import proofs.«152762_j26749056319877_1_alg».proof.Proof.Gen.Kernel
import proofs.«152762_j26749056319877_1_alg».proof.Proof.Gen.Kernel.Frame
import proofs.«152762_j26749056319877_1_alg».proof.Proof.Gen.KernelIdeal
import proofs.«152762_j26749056319877_1_alg».proof.Proof.Gen.KernelIdeal.Frame
import proofs.«152762_j26749056319877_1_alg».proof.Proof.Gen.ReferenceIdeal
import proofs.«152762_j26749056319877_1_alg».proof.Proof.Gen.Pre_finite_inputs
import proofs.«152762_j26749056319877_1_alg».proof.Proof.KernelValue
import proofs.«152762_j26749056319877_1_alg».proof.Proof.RefRun
import proofs.«152762_j26749056319877_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its argument unchanged: its run, the result dropped. -/
theorem frame_reference : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- From memories that agree on the argument, the kernel's result array ends at `G` of the argument (its blocks tile the
    array) and the reference's at its composed term of the same argument, which is `G` of it index by index. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [hagree c]
  exact Cert.ReferenceIdeal.Hand.refOut_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
